-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x4096x1024 : Shape := ⟨3, ![16, 4096, 1024]⟩
abbrev S2x1024 : Shape := ⟨2, ![2, 1024]⟩
abbrev S2 : Shape := ⟨1, ![2]⟩
abbrev S16 : Shape := ⟨1, ![16]⟩
abbrev S_ : Shape := ⟨0, ![]⟩

class Facts : Prop where
  bcast_S_S16x4096x1024 : S_.BroadcastsInDim S16x4096x1024 (![] : Fin 0 → Fin S16x4096x1024.rank)
  reducesTo_S16x4096x1024_S_d0_1_2 : S16x4096x1024.ReducesTo [0, 1, 2] S_
  h_S_ : 0 < S_.numel
  bcast_S_S2x1024 : S_.BroadcastsInDim S2x1024 (![] : Fin 0 → Fin S2x1024.rank)
  reducesTo_S2x1024_S_d0_1 : S2x1024.ReducesTo [0, 1] S_
  bcast_S_S2 : S_.BroadcastsInDim S2 (![] : Fin 0 → Fin S2.rank)
  reducesTo_S2_S_d0 : S2.ReducesTo [0] S_

variable [Facts]

def fn {F : FTy → Type} [FloatOps F] (main_arg0 : FVec F S16x4096x1024 .f32) (main_arg1 : FVec F S2x1024 .f32) (main_arg2 : FVec F S2 .f32) (main_arg3 : IVec S16 32) : IVec S_ 1 :=
  let main_v0 : FVec F S16x4096x1024 .f32 := Host.absf main_arg0
  let main_cst : FVec F S_ .f32 := constant S_ .f32 0x7F800000#32
  let main_v1 : FVec F S16x4096x1024 .f32 := broadcastInDim S16x4096x1024 ![] bcast_S_S16x4096x1024 main_cst
  let main_v2 : IVec S16x4096x1024 1 := cmpf .olt main_v0 main_v1
  let main_c : IVec S_ 1 := constantI S_ 1 1#1
  let main_v3 : IVec S_ 1 := (fun x v => Host.reduce IntOp.andi x v reducesTo_S16x4096x1024_S_d0_1_2 h_S_) main_v2 main_c
  let main_v4 : FVec F S2x1024 .f32 := Host.absf main_arg1
  let main_cst_0 : FVec F S_ .f32 := constant S_ .f32 0x7F800000#32
  let main_v5 : FVec F S2x1024 .f32 := broadcastInDim S2x1024 ![] bcast_S_S2x1024 main_cst_0
  let main_v6 : IVec S2x1024 1 := cmpf .olt main_v4 main_v5
  let main_c_1 : IVec S_ 1 := constantI S_ 1 1#1
  let main_v7 : IVec S_ 1 := (fun x v => Host.reduce IntOp.andi x v reducesTo_S2x1024_S_d0_1 h_S_) main_v6 main_c_1
  let main_v8 : IVec S_ 1 := andi main_v3 main_v7
  let main_v9 : FVec F S2 .f32 := Host.absf main_arg2
  let main_cst_2 : FVec F S_ .f32 := constant S_ .f32 0x7F800000#32
  let main_v10 : FVec F S2 .f32 := broadcastInDim S2 ![] bcast_S_S2 main_cst_2
  let main_v11 : IVec S2 1 := cmpf .olt main_v9 main_v10
  let main_c_3 : IVec S_ 1 := constantI S_ 1 1#1
  let main_v12 : IVec S_ 1 := (fun x v => Host.reduce IntOp.andi x v reducesTo_S2_S_d0 h_S_) main_v11 main_c_3
  let main_v13 : IVec S_ 1 := andi main_v8 main_v12
  main_v13
-- ==== Kernel.lean ====
abbrev S16x4096x1024 : Shape := ⟨3, ![16, 4096, 1024]⟩
abbrev S2x1024 : Shape := ⟨2, ![2, 1024]⟩
abbrev S2 : Shape := ⟨1, ![2]⟩
abbrev S16 : Shape := ⟨1, ![16]⟩
abbrev S16x1 : Shape := ⟨2, ![16, 1]⟩
abbrev S8x256x1024 : Shape := ⟨3, ![8, 256, 1024]⟩
abbrev S8x1 : Shape := ⟨2, ![8, 1]⟩
abbrev S2048x1024 : Shape := ⟨2, ![2048, 1024]⟩
abbrev S2048x2 : Shape := ⟨2, ![2048, 2]⟩
abbrev S1x2 : Shape := ⟨2, ![1, 2]⟩
abbrev S8x256x2 : Shape := ⟨3, ![8, 256, 2]⟩
abbrev S8x256x1 : Shape := ⟨3, ![8, 256, 1]⟩
abbrev S8x256 : Shape := ⟨2, ![8, 256]⟩
abbrev S1 : Shape := ⟨1, ![1]⟩
abbrev S1x256 : Shape := ⟨2, ![1, 256]⟩
abbrev S8 : Shape := ⟨1, ![8]⟩

abbrev nBuf : Space → Nat
  | .hbm => 5
  | .vmem => 7
  | .smem => 1
  | _ => 0

abbrev bufTy : (tb : Table) → Fin (tcTables nBuf tb) → BufTy
  | .hbm, ⟨0, _⟩ => ⟨S16x4096x1024, .f32⟩
  | .hbm, ⟨1, _⟩ => ⟨S2x1024, .f32⟩
  | .hbm, ⟨2, _⟩ => ⟨S2, .f32⟩
  | .hbm, ⟨3, _⟩ => ⟨S16x1, .f32⟩
  | .hbm, ⟨4, _⟩ => ⟨S16, .f32⟩
  | .local _ .vmem, ⟨0, _⟩ => ⟨S8x256x1024, .f32⟩
  | .local _ .vmem, ⟨1, _⟩ => ⟨S8x256x1024, .f32⟩
  | .local _ .vmem, ⟨2, _⟩ => ⟨S2x1024, .f32⟩
  | .local _ .vmem, ⟨3, _⟩ => ⟨S2, .f32⟩
  | .local _ .vmem, ⟨4, _⟩ => ⟨S8x1, .f32⟩
  | .local _ .vmem, ⟨5, _⟩ => ⟨S8x1, .f32⟩
  | .local _ .vmem, ⟨6, _⟩ => ⟨S8x1, .f32⟩
  | .local _ .smem, ⟨0, _⟩ => ⟨S16, .i32⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_arg3 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![2, 16], ![false, false]⟩

abbrev pre0 : Pipeline.Prefetch sig := ⟨1, ![main_arg3.idx], fun | 0 => main_arg3.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) (c0_i32_6 : BitVec 32) : Fin 1 → Nat :=
  let arg0 : BitVec 32 := BitVec.ofNat 32 (i 0).val
  let c8_i32 : BitVec 32 := 8#32
  let v23 : BitVec 32 := Scalar.muli arg0 c8_i32
  let v24 : BitVec 32 := Scalar.addi v23 c0_i32_6
  let v25 : Index := Scalar.indexCast v24
  ![v25.toNat]
def k0_cond2 (i : grid0.Coords) : BitVec 1 :=
  let arg1 : BitVec 32 := BitVec.ofNat 32 (i 1).val
  let c15_i32 : BitVec 32 := 15#32
  let v69 : BitVec 1 := Scalar.cmpi .eq arg1 c15_i32
  let v70 : BitVec 32 := Scalar.extui v69
  let c0_i32_12 : BitVec 32 := 0#32
  let v71 : BitVec 1 := Scalar.cmpi .ne v70 c0_i32_12
  v71

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S8x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S2x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S2 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S8x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  inb_S8x1_S8x1_0_0 : ∀ a, (![0, 0] : Fin 2 → Nat) a + S8x1.size a ≤ S8x1.size a
  h_S8x1 : 0 < S8x1.numel
  shapeCasts_S8x1_S8x1 : S8x1.ShapeCasts S8x1
  inb_S8x256x1024_S8x256x1024_0_0_0 : ∀ a, (![0, 0, 0] : Fin 3 → Nat) a + S8x256x1024.size a ≤ S8x256x1024.size a
  h_S8x256x1024 : 0 < S8x256x1024.numel
  bitsLt_bf16_f32 : FTy.bits .bf16 < FTy.bits .f32
  shapeCasts_S8x256x1024_S2048x1024 : S8x256x1024.ShapeCasts S2048x1024
  inb_S2x1024_S2x1024_0_0 : ∀ a, (![0, 0] : Fin 2 → Nat) a + S2x1024.size a ≤ S2x1024.size a
  h_S2x1024 : 0 < S2x1024.numel
  inb_S2_S2_0 : ∀ a, (![0] : Fin 1 → Nat) a + S2.size a ≤ S2.size a
  h_S2 : 0 < S2.numel
  shapeCasts_S2_S1x2 : S2.ShapeCasts S1x2
  broadcasts_S1x2_S2048x2 : S1x2.Broadcasts S2048x2
  shapeCasts_S2048x2_S8x256x2 : S2048x2.ShapeCasts S8x256x2
  slices_S8x256x2_o0_0_0_S8x256x1 : S8x256x2.Slices ![0, 0, 0] S8x256x1
  shapeCasts_S8x256x1_S8x256 : S8x256x1.ShapeCasts S8x256
  slices_S8x256x2_o0_0_1_S8x256x1 : S8x256x2.Slices ![0, 0, 1] S8x256x1
  iota_S8x256_d1_w32 : S8x256.Iotas .tc 32 [1]
  numel1_S1 : S1.numel = 1
  concatenates_S1x256_S1x256_S1x256_S1x256_S1x256_S1x256_S1x256_S1x256_S8x256_d0 : Shape.Concatenates [S1x256, S1x256, S1x256, S1x256, S1x256, S1x256, S1x256, S1x256] S8x256 0
  natLt_1_32 : 1 < 32
  reduces_S8x256_S8 : S8x256.Reduces [1] S8
  shapeCasts_S8_S8x1 : S8.ShapeCasts S8x1
  shapeCasts_S16x1_S16 : S16x1.ShapeCasts S16
  dot_S2048x1024_S2x1024_S2048x2_1_1_0_0_n_n_wf : DotDims.WF S2048x1024 S2x1024 S2048x2 [1] [1] [0] [0] [] []
  hrank0 : 0 < grid0.rank
  k0_off1_inb : ∀ i : grid0.Coords, ∀ (r : Fin 8), ∀ a, (k0_off1 i (BitVec.ofNat 32 r.val)) a + S1.size a ≤ S16.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x256x1024.size a ≤ S16x4096x1024.size a
  hwx0_0 : ∀ i : grid0.Coords, EltTy.bits .f32 = 32 ∨ (Rect.block (s := S16x4096x1024) S8x256x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2x1024.size a ≤ S2x1024.size a
  hwx0_1 : ∀ i : grid0.Coords, EltTy.bits .f32 = 32 ∨ (Rect.block (s := S2x1024) S2x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2.size a ≤ S2.size a
  hwx0_2 : ∀ i : grid0.Coords, EltTy.bits .f32 = 32 ∨ (Rect.block (s := S2) S2.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x1.size a ≤ S16x1.size a
  hwx0_3 : ∀ i : grid0.Coords, EltTy.bits .f32 = 32 ∨ (Rect.block (s := S16x1) S8x1.size (cc0_transform_3 i) (hinb0_3 i)).WholeWords (EltTy.packing .f32)

variable [Facts₀]

def dot_S2048x1024_S2x1024_S2048x2_1_1_0_0_n_n : DotDims S2048x1024 S2x1024 S2048x2 where
  lhsContracting := [1]
  rhsContracting := [1]
  lhsNonContracting := [0]
  rhsNonContracting := [0]
  lhsBatch := []
  rhsBatch := []
  wf := dot_S2048x1024_S2x1024_S2048x2_1_1_0_0_n_n_wf

abbrev spec0_0 : Pipeline.WinSpec sig grid0.rank :=
  Pipeline.WinSpec.ofSpec (Memref.whole main_arg0) S8x256x1024.size reads0_0 false false 2 stage0_0 sem0_0 nbuf0_0 hstage0_0

abbrev spec0_1 : Pipeline.WinSpec sig grid0.rank :=
  Pipeline.WinSpec.ofSpec (Memref.whole main_arg1) S2x1024.size reads0_1 false true 1 stage0_1 sem0_1 nbuf0_1 hstage0_1

abbrev spec0_2 : Pipeline.WinSpec sig grid0.rank :=
  Pipeline.WinSpec.ofSpec (Memref.whole main_arg2) S2.size reads0_2 false true 1 stage0_2 sem0_2 nbuf0_2 hstage0_2

abbrev spec0_3 : Pipeline.WinSpec sig grid0.rank :=
  Pipeline.WinSpec.ofSpec (Memref.whole main_v0) S8x1.size reads0_3 true false 2 stage0_3 sem0_3 nbuf0_3 hstage0_3

abbrev spec0 : Fin 4 → Pipeline.WinSpec sig grid0.rank := fun | 0 => spec0_0 | 1 => spec0_1 | 2 => spec0_2 | 3 => spec0_3 | ⟨_ + 4, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | ⟨_ + 4, h⟩ => absurd h (Nat.not_lt.2 (Nat.le_add_left _ _))
abbrev ix0 (pf : pre0.Contents (Elt F)) : (w : Fin 4) → grid0.Coords → Fin (spec0 w).shape.rank → Nat := fun | 0 => cc0_transform_0 | 1 => cc0_transform_1 | 2 => cc0_transform_2 | 3 => cc0_transform_3 | ⟨_ + 4, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 | 2 => hreads0_2 | 3 => hreads0_3 | ⟨_ + 4, h⟩ => absurd h (Nat.not_lt.2 (Nat.le_add_left _ _))
def ok0 (_ : pre0.Contents (Elt F)) : Prop :=
  True
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun _ _ => fun | 0 => hinb0_0 | 1 => hinb0_1 | 2 => hinb0_2 | 3 => hinb0_3 | ⟨_ + 4, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun _ _ => fun | 0 => hwx0_0 | 1 => hwx0_1 | 2 => hwx0_2 | 3 => hwx0_3 | ⟨_ + 4, h⟩ => absurd h (Nat.not_lt.2 (Nat.le_add_left _ _))
abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where
  harr0 : ∀ w, (spec0 w).arr.IsWhole

variable [Facts]
-- ==== ReferenceIdeal.lean ====
abbrev S16x4096x1024 : Shape := ⟨3, ![16, 4096, 1024]⟩
abbrev S2x1024 : Shape := ⟨2, ![2, 1024]⟩
abbrev S2 : Shape := ⟨1, ![2]⟩
abbrev S16 : Shape := ⟨1, ![16]⟩
abbrev S16x4096x2 : Shape := ⟨3, ![16, 4096, 2]⟩
abbrev S1x1x2 : Shape := ⟨3, ![1, 1, 2]⟩
abbrev S16x4096x1 : Shape := ⟨3, ![16, 4096, 1]⟩
abbrev S16x4096 : Shape := ⟨2, ![16, 4096]⟩
abbrev S_ : Shape := ⟨0, ![]⟩
abbrev S4096 : Shape := ⟨1, ![4096]⟩
abbrev S1x4096 : Shape := ⟨2, ![1, 4096]⟩
abbrev S16x1 : Shape := ⟨2, ![16, 1]⟩

abbrev nBuf : Space → Nat
  | .hbm => 31
  | .vmem => 0
  | .smem => 0
  | _ => 0

abbrev bufTy : (tb : Table) → Fin (tcTables nBuf tb) → BufTy
  | .hbm, ⟨0, _⟩ => ⟨S16x4096x1024, .f32⟩
  | .hbm, ⟨1, _⟩ => ⟨S2x1024, .f32⟩
  | .hbm, ⟨2, _⟩ => ⟨S2, .f32⟩
  | .hbm, ⟨3, _⟩ => ⟨S16, .i32⟩
  | .hbm, ⟨4, _⟩ => ⟨S16x4096x2, .f32⟩
  | .hbm, ⟨5, _⟩ => ⟨S1x1x2, .f32⟩
  | .hbm, ⟨6, _⟩ => ⟨S16x4096x2, .f32⟩
  | .hbm, ⟨7, _⟩ => ⟨S16x4096x2, .f32⟩
  | .hbm, ⟨8, _⟩ => ⟨S16x4096x1, .f32⟩
  | .hbm, ⟨9, _⟩ => ⟨S16x4096, .f32⟩
  | .hbm, ⟨10, _⟩ => ⟨S16x4096, .f32⟩
  | .hbm, ⟨11, _⟩ => ⟨S16x4096, .f32⟩
  | .hbm, ⟨12, _⟩ => ⟨S_, .f32⟩
  | .hbm, ⟨13, _⟩ => ⟨S16x4096, .f32⟩
  | .hbm, ⟨14, _⟩ => ⟨S16x4096, .f32⟩
  | .hbm, ⟨15, _⟩ => ⟨S_, .f32⟩
  | .hbm, ⟨16, _⟩ => ⟨S16x4096, .f32⟩
  | .hbm, ⟨17, _⟩ => ⟨S16x4096, .f32⟩
  | .hbm, ⟨18, _⟩ => ⟨S16x4096x1, .f32⟩
  | .hbm, ⟨19, _⟩ => ⟨S16x4096, .f32⟩
  | .hbm, ⟨20, _⟩ => ⟨S4096, .i32⟩
  | .hbm, ⟨21, _⟩ => ⟨S1x4096, .i32⟩
  | .hbm, ⟨22, _⟩ => ⟨S16x1, .i32⟩
  | .hbm, ⟨23, _⟩ => ⟨S16x4096, .i32⟩
  | .hbm, ⟨24, _⟩ => ⟨S16x4096, .i32⟩
  | .hbm, ⟨25, _⟩ => ⟨S16x4096, .i1⟩
  | .hbm, ⟨26, _⟩ => ⟨S16x4096, .f32⟩
  | .hbm, ⟨27, _⟩ => ⟨S16x4096, .f32⟩
  | .hbm, ⟨28, _⟩ => ⟨S16x4096, .f32⟩
  | .hbm, ⟨29, _⟩ => ⟨S_, .f32⟩
  | .hbm, ⟨30, _⟩ => ⟨S16, .f32⟩
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_1 : Ref sig .tc := ⟨.hbm, 29, rfl⟩
abbrev main_v23 : Ref sig .tc := ⟨.hbm, 30, rfl⟩

abbrev nD : Nat := 1
abbrev τ : Topo := Topo.v7x

variable {F : FTy → Type} [FloatOps F]

class Facts₀ : Prop where
  bcast_S2_S1x1x2_2 : S2.BroadcastsInDim S1x1x2 (![2] : Fin 1 → Fin S1x1x2.rank)
  bcast_S1x1x2_S16x4096x2_0_1_2 : S1x1x2.BroadcastsInDim S16x4096x2 (![0, 1, 2] : Fin 3 → Fin S16x4096x2.rank)
  slices_S16x4096x2_S16x4096x1_0_0_0 : S16x4096x2.Slices ![0, 0, 0] S16x4096x1
  shapeCasts_S16x4096x1_S16x4096 : S16x4096x1.ShapeCasts S16x4096
  bcast_S_S16x4096 : S_.BroadcastsInDim S16x4096 (![] : Fin 0 → Fin S16x4096.rank)
  slices_S16x4096x2_S16x4096x1_0_0_1 : S16x4096x2.Slices ![0, 0, 1] S16x4096x1
  bcast_S4096_S1x4096_1 : S4096.BroadcastsInDim S1x4096 (![1] : Fin 1 → Fin S1x4096.rank)
  bcast_S16_S16x1_0 : S16.BroadcastsInDim S16x1 (![0] : Fin 1 → Fin S16x1.rank)
  bcast_S1x4096_S16x4096_0_1 : S1x4096.BroadcastsInDim S16x4096 (![0, 1] : Fin 2 → Fin S16x4096.rank)
  bcast_S16x1_S16x4096_0_1 : S16x1.BroadcastsInDim S16x4096 (![0, 1] : Fin 2 → Fin S16x4096.rank)
  reducesTo_S16x4096_S16_d1 : S16x4096.ReducesTo [1] S16
  h_S_ : 0 < S_.numel
  dot_S16x4096x1024_S2x1024_S16x4096x2_2_1_01_0_n_n_wf : DotDims.WF S16x4096x1024 S2x1024 S16x4096x2 [2] [1] [0, 1] [0] [] []

variable [Facts₀]

def dot_S16x4096x1024_S2x1024_S16x4096x2_2_1_01_0_n_n : DotDims S16x4096x1024 S2x1024 S16x4096x2 where
  lhsContracting := [2]
  rhsContracting := [1]
  lhsNonContracting := [0, 1]
  rhsNonContracting := [0]
  lhsBatch := []
  rhsBatch := []
  wf := dot_S16x4096x1024_S2x1024_S16x4096x2_2_1_01_0_n_n_wf

class Facts : Prop extends Facts₀ where

variable [Facts]
-- ==== Proof.Spec.lean ====
/-
  The mathematics both programs compute, stated once over the extended reals and over no program.

  A token (row p, position s) has a feature row x[p, s, ·] of 1024 numbers.  Two linear read-outs of it,
  u₀ = Σₖ x[p,s,k]·W[0,k] + b[0] and u₁ = Σₖ x[p,s,k]·W[1,k] + b[1], give the gate 1/(1 + e^(−u₀)) and the reward u₁;
  the token contributes gate · reward · mask, where mask is 1 when s < lengths[p] (as signed 32-bit words) and 0
  otherwise.  The result at row p is the sum of the contributions of its 4096 positions.

  The kernel forms that sum tile by tile: sixteen tiles of 256 positions, each tile's sum added to a running
  total.  Addition of extended reals is commutative and associative, so the regrouping changes nothing
  (`sum_tiles`); no finiteness of the inputs is needed.
-/
import Idealize.ShloMosaic.PureOps.Ideal
import Idealize.ShloMosaic.PureOps.Ideal.Laws
import Idealize.ShloMosaic.Lib.ValueIdx

noncomputable section

namespace Cert.GatedReward

open Idealize.ShloMosaic Idealize.ShloMosaic.ValueIdx

abbrev SX : Shape := ⟨3, ![16, 4096, 1024]⟩
abbrev SXb : Shape := ⟨3, ![8, 256, 1024]⟩
abbrev SW : Shape := ⟨2, ![2, 1024]⟩
abbrev SB : Shape := ⟨1, ![2]⟩
abbrev SL : Shape := ⟨1, ![16]⟩

/-- The length mask as a number: one where `pos < len` as signed 32-bit words, zero elsewhere. -/
def maskVal (pos len : BitVec 32) : EReal := (((IntOp.cmpi .slt pos len).toNat : ℝ) : EReal)

/-- One token's contribution from its feature row: gate · reward · mask. -/
def tokenVal (xrow : Fin 1024 → EReal) (W : FVec Ideal SW .f32) (b : FVec Ideal SB .f32) (pos len : BitVec 32) : EReal :=
  Ideal.logistic ((∑ k : Fin 1024, xrow k * W (ix2 (0 : Fin 2) k)) + b (ix1 (0 : Fin 2)))
    * ((∑ k : Fin 1024, xrow k * W (ix2 (1 : Fin 2) k)) + b (ix1 (1 : Fin 2))) * maskVal pos len

/-- The contribution of position `s` of row `p` of the whole arrays. -/
def term (x : FVec Ideal SX .f32) (W : FVec Ideal SW .f32) (b : FVec Ideal SB .f32) (len : IVec SL 32)
    (p : Fin 16) (s : Fin 4096) : EReal :=
  tokenVal (fun k => x (ix3 p s k)) W b (BitVec.ofNat 32 s.val) (len (ix1 p))

/-- The same with the row and the position natural numbers (zero outside the array). -/
def termN (x : FVec Ideal SX .f32) (W : FVec Ideal SW .f32) (b : FVec Ideal SB .f32) (len : IVec SL 32)
    (p s : ℕ) : EReal :=
  if h : p < 16 ∧ s < 4096 then term x W b len ⟨p, h.1⟩ ⟨s, h.2⟩ else 0

/-- THE RESULT: at row `p`, the sum of its 4096 positions' contributions. -/
def G (x : FVec Ideal SX .f32) (W : FVec Ideal SW .f32) (b : FVec Ideal SB .f32) (len : IVec SL 32) : FVec Ideal SL .f32 :=
  fun i => ∑ s : Fin 4096, term x W b len ⟨(i 0).val, (i 0).isLt⟩ s

/-- What one grid point adds at row `r` of its block: the sum over the tile's 256 positions, the block's rows read
    directly, the positions numbered from `base`, the rows' lengths `lens`. -/
def tileVal (xb : FVec Ideal SXb .f32) (W : FVec Ideal SW .f32) (b : FVec Ideal SB .f32) (lens : Fin 8 → BitVec 32)
    (base : BitVec 32) (r : Fin 8) : EReal :=
  ∑ j : Fin 256, tokenVal (fun k => xb (ix3 r j k)) W b (BitVec.ofNat 32 j.val + base) (lens r)

/-- The sum of row `p`'s first `n` tiles. -/
def rowSum (x : FVec Ideal SX .f32) (W : FVec Ideal SW .f32) (b : FVec Ideal SB .f32) (len : IVec SL 32)
    (p n : ℕ) : EReal :=
  ∑ q ∈ Finset.range n, ∑ j : Fin 256, termN x W b len p (256 * q + j.val)

theorem rowSum_succ (x : FVec Ideal SX .f32) (W : FVec Ideal SW .f32) (b : FVec Ideal SB .f32) (len : IVec SL 32) (p n : ℕ) :
    rowSum x W b len p (n + 1) = rowSum x W b len p n + ∑ j : Fin 256, termN x W b len p (256 * n + j.val) :=
  Finset.sum_range_succ _ n

theorem rowSum_one (x : FVec Ideal SX .f32) (W : FVec Ideal SW .f32) (b : FVec Ideal SB .f32) (len : IVec SL 32) (p : ℕ) :
    rowSum x W b len p 1 = ∑ j : Fin 256, termN x W b len p (256 * 0 + j.val) := by
  unfold rowSum; rw [Finset.sum_range_one]

/-- A sum over `256·a` consecutive naturals is the sum of `a` tiles of 256. -/
theorem sum_tiles {M : Type} [AddCommMonoid M] (f : ℕ → M) (a : ℕ) :
    ∑ s ∈ Finset.range (256 * a), f s = ∑ q ∈ Finset.range a, ∑ j ∈ Finset.range 256, f (256 * q + j) := by
  induction a with
  | zero => simp
  | succ a ih =>
    rw [Finset.sum_range_succ, ← ih, show 256 * (a + 1) = 256 * a + 256 by ring, Finset.sum_range_add]

/-- So sixteen tiles make the whole row. -/
theorem rowSum_sixteen (x : FVec Ideal SX .f32) (W : FVec Ideal SW .f32) (b : FVec Ideal SB .f32) (len : IVec SL 32)
    (p : Fin 16) : rowSum x W b len p.val 16 = G x W b len (ix1 p) := by
  unfold rowSum G
  have h1 : ∀ q : ℕ, ∑ j : Fin 256, termN x W b len p.val (256 * q + j.val)
      = ∑ j ∈ Finset.range 256, termN x W b len p.val (256 * q + j) := fun q =>
    (Finset.sum_range fun j => termN x W b len p.val (256 * q + j)).symm
  rw [Finset.sum_congr rfl fun q _ => h1 q, ← sum_tiles (fun s => termN x W b len p.val s) 16,
    show 256 * 16 = 4096 by norm_num, Finset.sum_range]
  refine Finset.sum_congr rfl fun s _ => ?_
  unfold termN
  rw [dif_pos ⟨p.isLt, s.isLt⟩]

/-- A one-bit word widened to 32 bits and read as a signed integer is the bit read as a natural number: the kernel's
    mask (widen, then signed conversion) and the reference's (unsigned conversion of the bit) are one number. -/
theorem widened_bit (c : BitVec 1) : (((c.setWidth 32).toInt : ℝ) : EReal) = ((c.toNat : ℝ) : EReal) := by
  by_cases h : c = 1#1
  · subst h; simp
  · have h0 := eq_zero_of_ne_one h
    subst h0; simp

/-- Position `j` of tile `q` is position `256·q + j` of the row, as 32-bit words. -/
theorem pos_word (q j : ℕ) :
    BitVec.ofNat 32 j + BitVec.ofNat 32 q * 256#32 = BitVec.ofNat 32 (256 * q + j) := by
  apply BitVec.eq_of_toNat_eq
  simp [BitVec.toNat_add, BitVec.toNat_mul, BitVec.toNat_ofNat]
  omega

end Cert.GatedReward

end
-- ==== Proof.RefIsG.lean ====
/-
  The reference program computes the specification's function.

  The reference forms, for every token (row p, position s), the two read-outs u₀ and u₁ of its feature row as one
  contraction followed by the bias, takes 1 / (1 + e^(−u₀)) · u₁, multiplies by the length mask, and sums over the
  positions of the row.  Read one operation at a time at an index, every stage is the corresponding factor of
  `term`, and the sum over positions is `G`.
-/
import proofs.«421739_j26182120637033_1_alg».proof.Proof.Spec
import proofs.«421739_j26182120637033_1_alg».proof.Proof.Gen.ReferenceIdeal.Read
import Idealize.ShloMosaic.Lib.IdealHost

noncomputable section

namespace Cert.GatedReward

open Idealize.ShloMosaic Idealize.ShloMosaic.ValueIdx
open Cert.ReferenceIdeal.Read

/-- The fused read-out o of token (p, s): the contraction of the feature row with row o of the weights, plus the
    bias o. -/
theorem fused_at (x0 : FVec Ideal SX .f32) (x1 : FVec Ideal SW .f32) (x2 : FVec Ideal SB .f32)
    (p : Fin 16) (s : Fin 4096) (o : Fin 2) :
    val_main_v3 (F := Ideal) x0 x1 x2 (ix3 p s o)
      = (∑ k : Fin 1024, x0 (ix3 p s k) * x1 (ix2 o k)) + x2 (ix1 o) := by
  rw [val_main_v3_apply, val_main_v0_apply, val_main_v2_apply, val_main_v1_apply]
  have hl : ∀ k : Fin 1024, lidx_main_v0 (ix3 p s o) k = ix3 p s k := fun k =>
    funext fun a => by match a with | ⟨0, _⟩ => rfl | ⟨1, _⟩ => rfl | ⟨2, _⟩ => rfl
  have hr : ∀ k : Fin 1024, ridx_main_v0 (ix3 p s o) k = ix2 o k := fun k =>
    funext fun a => by match a with | ⟨0, _⟩ => rfl | ⟨1, _⟩ => rfl
  have hb : idx_main_v1 (idx_main_v2 (ix3 p s o)) = ix1 o :=
    funext fun a => by match a with | ⟨0, _⟩ => rfl
  rw [hb]
  show (∑ k : Fin 1024, x0 (lidx_main_v0 (ix3 p s o) k) * x1 (ridx_main_v0 (ix3 p s o) k)) + x2 (ix1 o) = _
  refine congrArg (· + x2 (ix1 o)) (Finset.sum_congr rfl fun k _ => ?_)
  rw [hl k, hr k]

/-- The gate's argument at (p, s) is read-out 0. -/
theorem u0_at (x0 : FVec Ideal SX .f32) (x1 : FVec Ideal SW .f32) (x2 : FVec Ideal SB .f32)
    (p : Fin 16) (s : Fin 4096) :
    val_main_v5 (F := Ideal) x0 x1 x2 (ix2 p s) = val_main_v3 (F := Ideal) x0 x1 x2 (ix3 p s (0 : Fin 2)) := by
  rw [val_main_v5_apply, val_main_v4_apply]
  refine congrArg (val_main_v3 (F := Ideal) x0 x1 x2) (funext fun a => Fin.ext ?_)
  have hp := p.isLt
  have hs := s.isLt
  match a with
  | ⟨0, _⟩ => show (p.val * 4096 + s.val) / 4096 = p.val; omega
  | ⟨1, _⟩ => show (p.val * 4096 + s.val) / 1 % 4096 = s.val; omega
  | ⟨2, _⟩ => rfl

/-- The reward at (p, s) is read-out 1. -/
theorem u1_at (x0 : FVec Ideal SX .f32) (x1 : FVec Ideal SW .f32) (x2 : FVec Ideal SB .f32)
    (p : Fin 16) (s : Fin 4096) :
    val_main_v13 (F := Ideal) x0 x1 x2 (ix2 p s) = val_main_v3 (F := Ideal) x0 x1 x2 (ix3 p s (1 : Fin 2)) := by
  rw [val_main_v13_apply, val_main_v12_apply]
  refine congrArg (val_main_v3 (F := Ideal) x0 x1 x2) (funext fun a => Fin.ext ?_)
  have hp := p.isLt
  have hs := s.isLt
  match a with
  | ⟨0, _⟩ => show (p.val * 4096 + s.val) / 4096 = p.val; omega
  | ⟨1, _⟩ => show (p.val * 4096 + s.val) / 1 % 4096 = s.val; omega
  | ⟨2, _⟩ => rfl

/-- One over one plus the exponential of the negation is the logistic function. -/
theorem gate_at (x0 : FVec Ideal SX .f32) (x1 : FVec Ideal SW .f32) (x2 : FVec Ideal SB .f32)
    (j : Cert.ReferenceIdeal.S16x4096.Idx) :
    val_main_v11 (F := Ideal) x0 x1 x2 j = Ideal.logistic (val_main_v5 (F := Ideal) x0 x1 x2 j) := by
  rw [val_main_v11_apply, val_main_v10_apply, val_main_cst_0_apply, val_main_v9_apply, val_main_v8_apply,
    val_main_cst_apply, val_main_v7_apply, val_main_v6_apply, Ideal.ofBits_def, Ideal.ofBits_one_f32]
  rfl

/-- The mask at (p, s): position s, as a word, compared with the row's length. -/
theorem mask_at (x3 : IVec SL 32) (p : Fin 16) (s : Fin 4096) :
    val_main_v20 (F := Ideal) x3 (ix2 p s) = maskVal (BitVec.ofNat 32 s.val) (x3 (ix1 p)) := by
  rw [val_main_v20_apply, val_main_v19_apply, val_main_v17_apply, val_main_v15_apply, val_main_v14_apply,
    val_main_v18_apply, val_main_v16_apply]
  have hL : idx_main_v16 (idx_main_v18 (ix2 p s)) = ix1 p :=
    funext fun a => by match a with | ⟨0, _⟩ => rfl
  rw [hL]
  rfl

/-- The summand of the reference's final sum at (p, s) is the token's contribution. -/
theorem summand_at (x0 : FVec Ideal SX .f32) (x1 : FVec Ideal SW .f32) (x2 : FVec Ideal SB .f32) (x3 : IVec SL 32)
    (p : Fin 16) (s : Fin 4096) :
    val_main_v22 (F := Ideal) x0 x1 x2 x3 (ix2 p s) = term x0 x1 x2 x3 p s := by
  rw [val_main_v22_apply, val_main_v21_apply, gate_at, u0_at, u1_at, mask_at, fused_at, fused_at]
  rfl

theorem ref_eq_G (x0 : FVec Ideal SX .f32) (x1 : FVec Ideal SW .f32) (x2 : FVec Ideal SB .f32) (x3 : IVec SL 32) :
    Cert.ReferenceIdeal.Read.val_main_v23 (F := Ideal) x0 x1 x2 x3 = G x0 x1 x2 x3 := by
  funext i
  rw [val_main_v23_apply, val_main_cst_1_apply, Ideal.ofBits_def, Ideal.ofBits_zero_f32, zero_add]
  unfold G
  refine Finset.sum_congr rfl fun s _ => ?_
  have hi : idx_main_v23 i s = ix2 (⟨(i 0).val, (i 0).isLt⟩ : Fin 16) s :=
    funext fun a => by match a with | ⟨0, _⟩ => rfl | ⟨1, _⟩ => rfl
  rw [hi]
  exact summand_at x0 x1 x2 x3 _ s

end Cert.GatedReward

end
-- ==== Proof.Pieces.lean ====
/-
  What each kind of grid point leaves behind, as one function of what it loads.

  A point loads its feature block, the weights, the bias and the eight length words of its rows, and stores the
  updated running totals; the first point of a sweep stores zeros first and reads them back, the last point also
  copies the new totals into the output block.  In every case the stored block is the same function `step` of the
  loads and of the totals the point started from (zero for a sweep's first point).
-/
import proofs.«421739_j26182120637033_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem Idealize.ShloMosaic.Tactic
open Idealize.ShloMosaic.Pipeline (Dat)

namespace Cert.GatedReward.Pieces

open Cert.KernelIdeal Cert.KernelIdeal.Gen

variable {F : FTy → Type} [FloatOps F]

theorem hz : (![0, 0] : Fin 2 → Nat) = fun _ => 0 := funext fun a => by fin_cases a <;> rfl

theorem hz3 : (![0, 0, 0] : Fin 3 → Nat) = fun _ => 0 := funext fun a => by fin_cases a <;> rfl
theorem hz1 : (![0] : Fin 1 → Nat) = fun _ => 0 := funext fun a => by fin_cases a <;> rfl

/-- The length word the body loads for row `r` of its block: the table's word at offset `8·i₀ + r`. -/
def lenWord (c : Dev nD) (i : grid0.Coords) (r : Fin 8) (xt0 : TbBuf0 (F := F) c tbM0_0) : Elt F .i32 :=
  View.readAt (Elt F) tbM0_0.view
    (Rect.unit (s := S16) (k0_off1 i (BitVec.ofNat 32 r.val)) S1.size (Facts₀.k0_off1_inb i r)).toLoadRect xt0
    (Shape.Idx.first (Facts₀.numel1_S1.symm ▸ Nat.one_pos))

/-- One point's update of the running totals: the old totals `acc` plus the tile's row sums, as the body's payload
    over the point's blocks and the eight length words. -/
def step (c : Dev nD) (i : grid0.Coords) (x0 : Vec F S8x256x1024 .f32) (x1 : Vec F S2x1024 .f32) (x2 : Vec F S2 .f32) (xt0 : TbBuf0 (F := F) c tbM0_0) (acc : Vec F S8x1 .f32) : Vec F S8x1 .f32 :=
  k0_pay1 (k0_pay4 x0 x1 x2) (k0_pay5 x0 x1 x2) (k0_pay6 i) (k0_pay7 (lenWord c i 0 xt0)) (k0_pay8 (lenWord c i 1 xt0))
    (k0_pay9 (lenWord c i 2 xt0)) (k0_pay10 (lenWord c i 3 xt0)) (lenWord c i 4 xt0) (lenWord c i 5 xt0)
    (lenWord c i 6 xt0) (lenWord c i 7 xt0) acc

/-- A point that neither starts nor ends a row block's sweep leaves in the scratch the update of what it found. -/
theorem sout_B (c : Dev nD) (i : grid0.Coords) (arg3 : Memref sig .tc .vmem S8x256x1024 .f32) (harg3 : arg3.IsWhole) (arg4 : Memref sig .tc .vmem S2x1024 .f32) (harg4 : arg4.IsWhole) (arg5 : Memref sig .tc .vmem S2 .f32) (harg5 : arg5.IsWhole) (arg6 : Memref sig .tc .vmem S8x1 .f32) (harg6 : arg6.IsWhole) (arg7 : Memref sig .tc .vmem S8x1 .f32) (harg7 : arg7.IsWhole) (hc0 : ¬cond0_0 i) (hc1 : ¬cond0_1 i) (x0 : Vec F S8x256x1024 .f32) (x1 : Vec F S2x1024 .f32) (x2 : Vec F S2 .f32) (xt0 : TbBuf0 (F := F) c tbM0_0) (xs0 : Vec F S8x1 .f32) :
    sout0_B_0 c i arg3 harg3 arg4 harg4 arg5 harg5 arg6 harg6 arg7 harg7 hc0 hc1 x0 x1 x2 xt0 xs0 = step c i x0 x1 x2 xt0 xs0 := by
  unfold sout0_B_0
  rw [View.read_writes_eq_canon _ _ _ (scover0_B_0 c i arg3 harg3 arg4 harg4 arg5 harg5 arg6 harg6 arg7 harg7 hc0 hc1 x0 x1 x2 xt0 xs0)]
  unfold kernelRun0_B
  dsimp only
  sl_unfold_words
  rw [View.canon_unit_zero hz]
  simp only [View.readAt_eq_ld, harg3.read_unread, harg4.read_unread, harg5.read_unread, harg7.read_unread,
    View.ld_unit_zero (S := S8x256x1024) hz3, View.ld_unit_zero (S := S2x1024) hz, View.ld_unit_zero (S := S2) hz1,
    View.ld_unit_zero (S := S8x1) hz]
  rfl

/-- The zero totals a sweep starts from. -/
def zeroAcc : Vec F S8x1 .f32 := k0_pay2 (F := F)

/-- The first point of a row block's sweep resets the scratch and leaves the update of the zero totals. -/
theorem sout_A (c : Dev nD) (i : grid0.Coords) (arg3 : Memref sig .tc .vmem S8x256x1024 .f32) (harg3 : arg3.IsWhole) (arg4 : Memref sig .tc .vmem S2x1024 .f32) (harg4 : arg4.IsWhole) (arg5 : Memref sig .tc .vmem S2 .f32) (harg5 : arg5.IsWhole) (arg6 : Memref sig .tc .vmem S8x1 .f32) (harg6 : arg6.IsWhole) (arg7 : Memref sig .tc .vmem S8x1 .f32) (harg7 : arg7.IsWhole) (hc0 : cond0_0 i) (hc1 : ¬cond0_1 i) (x0 : Vec F S8x256x1024 .f32) (x1 : Vec F S2x1024 .f32) (x2 : Vec F S2 .f32) (xt0 : TbBuf0 (F := F) c tbM0_0) :
    sout0_A_0 c i arg3 harg3 arg4 harg4 arg5 harg5 arg6 harg6 arg7 harg7 hc0 hc1 x0 x1 x2 xt0 = step c i x0 x1 x2 xt0 zeroAcc := by
  unfold sout0_A_0
  rw [View.read_writes_eq_canon _ _ _ (scover0_A_0 c i arg3 harg3 arg4 harg4 arg5 harg5 arg6 harg6 arg7 harg7 hc0 hc1 x0 x1 x2 xt0)]
  unfold kernelRun0_A
  dsimp only
  sl_unfold_words
  rw [View.canon_cons_unit_zero (S := S8x1) hz]
  simp only [View.readAt_eq_ld, harg3.read_unread, harg4.read_unread, harg5.read_unread,
    View.ld_unit_zero (S := S8x256x1024) hz3, View.ld_unit_zero (S := S2x1024) hz, View.ld_unit_zero (S := S2) hz1,
    View.ld_unit_zero (S := S8x1) hz, View.readCov_unit_zero (S := S8x1) _ hz]
  rfl

/-- The last point of a sweep leaves in the scratch the update of what it found, -/
theorem sout_C (c : Dev nD) (i : grid0.Coords) (arg3 : Memref sig .tc .vmem S8x256x1024 .f32) (harg3 : arg3.IsWhole) (arg4 : Memref sig .tc .vmem S2x1024 .f32) (harg4 : arg4.IsWhole) (arg5 : Memref sig .tc .vmem S2 .f32) (harg5 : arg5.IsWhole) (arg6 : Memref sig .tc .vmem S8x1 .f32) (harg6 : arg6.IsWhole) (arg7 : Memref sig .tc .vmem S8x1 .f32) (harg7 : arg7.IsWhole) (hc0 : ¬cond0_0 i) (hc1 : cond0_1 i) (x0 : Vec F S8x256x1024 .f32) (x1 : Vec F S2x1024 .f32) (x2 : Vec F S2 .f32) (xt0 : TbBuf0 (F := F) c tbM0_0) (xs0 : Vec F S8x1 .f32) :
    sout0_C_0 c i arg3 harg3 arg4 harg4 arg5 harg5 arg6 harg6 arg7 harg7 hc0 hc1 x0 x1 x2 xt0 xs0 = step c i x0 x1 x2 xt0 xs0 := by
  unfold sout0_C_0
  rw [View.read_writes_eq_canon _ _ _ (scover0_C_0 c i arg3 harg3 arg4 harg4 arg5 harg5 arg6 harg6 arg7 harg7 hc0 hc1 x0 x1 x2 xt0 xs0)]
  unfold kernelRun0_C
  dsimp only
  sl_unfold_words
  rw [View.canon_unit_zero hz]
  simp only [View.readAt_eq_ld, harg3.read_unread, harg4.read_unread, harg5.read_unread, harg7.read_unread,
    View.ld_unit_zero (S := S8x256x1024) hz3, View.ld_unit_zero (S := S2x1024) hz, View.ld_unit_zero (S := S2) hz1,
    View.ld_unit_zero (S := S8x1) hz]
  rfl

/-- and copies those totals into the output block. -/
theorem out_C (c : Dev nD) (i : grid0.Coords) (arg3 : Memref sig .tc .vmem S8x256x1024 .f32) (harg3 : arg3.IsWhole) (arg4 : Memref sig .tc .vmem S2x1024 .f32) (harg4 : arg4.IsWhole) (arg5 : Memref sig .tc .vmem S2 .f32) (harg5 : arg5.IsWhole) (arg6 : Memref sig .tc .vmem S8x1 .f32) (harg6 : arg6.IsWhole) (arg7 : Memref sig .tc .vmem S8x1 .f32) (harg7 : arg7.IsWhole) (hc0 : ¬cond0_0 i) (hc1 : cond0_1 i) (x0 : Vec F S8x256x1024 .f32) (x1 : Vec F S2x1024 .f32) (x2 : Vec F S2 .f32) (xt0 : TbBuf0 (F := F) c tbM0_0) (xs0 : Vec F S8x1 .f32) :
    out0_C_3 c i arg3 harg3 arg4 harg4 arg5 harg5 arg6 harg6 arg7 harg7 hc0 hc1 x0 x1 x2 xt0 xs0 = step c i x0 x1 x2 xt0 xs0 := by
  unfold out0_C_3
  rw [View.read_writes_eq_canon _ _ _ (cover0_C_3 c i arg3 harg3 arg4 harg4 arg5 harg5 arg6 harg6 arg7 harg7 hc0 hc1 x0 x1 x2 xt0 xs0)]
  unfold kernelRun0_C
  dsimp only
  sl_unfold_words
  rw [View.canon_unit_zero hz]
  simp only [View.readAt_eq_ld, harg3.read_unread, harg4.read_unread, harg5.read_unread, harg7.read_unread,
    View.ld_unit_zero (S := S8x256x1024) hz3, View.ld_unit_zero (S := S2x1024) hz, View.ld_unit_zero (S := S2) hz1,
    View.ld_unit_zero (S := S8x1) hz, View.readCov_unit_zero (S := S8x1) _ hz]
  rfl

end Cert.GatedReward.Pieces

end
-- ==== Proof.Blocks.lean ====
/-
  Where a grid point reads: its coordinates, its rows' length words, and its three input blocks as parts of the
  argument arrays.  Point t of the 2 × 16 grid works on rows 8·(t / 16) … 8·(t / 16) + 7 and on positions
  256·(t % 16) … 256·(t % 16) + 255; the weights and the bias are read whole at every point.
-/
import proofs.«421739_j26182120637033_1_alg».proof.Proof.Pieces
import Idealize.ShloMosaic.Lib.ValueIdx

noncomputable section

open Idealize.ShloMosaic Idealize.ShloMosaic.TcCoe Idealize.SL.Sem Idealize.ShloMosaic.ValueIdx

namespace Cert.GatedReward.Blocks

open Cert.KernelIdeal Cert.KernelIdeal.Gen Cert.GatedReward.Pieces

variable {F : FTy → Type} [FloatOps F]
variable (m : (ℓ : Loc nD τ sig) → Buf (Elt F) ℓ)

/-- Point `t` of the 2 × 16 grid is row block `t / 16`, tile `t % 16`; the feature window's block index is
    (row block, tile, 0), the weights' and the bias's (0, 0) and (0), the output's (row block, 0). -/
theorem point_facts : ∀ t : Fin grid0.N,
    (grid0.coords t 1).val = t.val % 16
    ∧ cc0_transform_0 (grid0.coords t) 0 = t.val / 16 ∧ cc0_transform_0 (grid0.coords t) 1 = t.val % 16
    ∧ cc0_transform_0 (grid0.coords t) 2 = 0
    ∧ cc0_transform_3 (grid0.coords t) 0 = t.val / 16 ∧ cc0_transform_3 (grid0.coords t) 1 = 0 :=
  (by decide +kernel : ∀ t : Fin grid0.N, _)

/-- The offset of row `r`'s length word at point `t`: `8·(t / 16) + r`. -/
theorem off_val : ∀ (t : Fin grid0.N) (r : Fin 8),
    k0_off1 (grid0.coords t) (BitVec.ofNat 32 r.val) 0 = 8 * (t.val / 16) + r.val :=
  (by decide +kernel : ∀ (t : Fin grid0.N) (r : Fin 8), _)

theorem row_lt (t : Fin grid0.N) (r : Fin 8) : 8 * (t.val / 16) + r.val < 16 := by
  have hN : grid0.N = 32 := N_0
  have := t.isLt; have := r.isLt; omega

theorem pos_lt (t : Fin grid0.N) (j : Fin 256) : 256 * (t.val % 16) + j.val < 4096 := by
  have := j.isLt; omega

/-- The length word loaded for row `r` at point `t` is the table's entry `8·(t / 16) + r`. -/
theorem lenWord_eq (c : Dev nD) (t : Fin grid0.N) (r : Fin 8) (xt : TbBuf0 (F := F) c tbM0_0) :
    lenWord c (grid0.coords t) r xt = (xt : S16.Idx → BitVec 32) (ix1 ⟨8 * (t.val / 16) + r.val, row_lt t r⟩) := by
  unfold lenWord
  rw [View.readAt_apply, View.read_apply]
  show (xt : S16.Idx → BitVec 32) _ = _
  refine congrArg (xt : S16.Idx → BitVec 32) ?_
  funext a
  apply Fin.ext
  match a with
  | ⟨0, _⟩ =>
    show k0_off1 (grid0.coords t) (BitVec.ofNat 32 r.val) 0 + 1 * 0 = 8 * (t.val / 16) + r.val
    rw [off_val t r]; omega

/-- The feature block at point `t`: rows `8·(t/16) + r`, positions `256·(t%16) + j` of the array. -/
theorem xblk_apply (hO : Ok m) (c : Dev nD) (t : Fin (cfgM m hO).N) (r : Fin 8) (j : Fin 256) (k : Fin 1024) :
    (iblk m hO c 0 t : Vec F S8x256x1024 .f32) (ix3 r j k)
      = (m ((c : Thread nD τ).loc main_arg0) : S16x4096x1024.Idx → Elt F .f32)
          (ix3 ⟨8 * (t.val / 16) + r.val, row_lt t r⟩ ⟨256 * (t.val % 16) + j.val, pos_lt t j⟩ k) := by
  obtain ⟨-, h0, h1, h2, -, -⟩ := point_facts t
  unfold iblk
  show V m c main_arg0 ((((cfgM m hO).win 0).blk t).view.emb (ix3 r j k)) = m ((c : Thread nD τ).loc main_arg0) _
  unfold V
  refine congrArg (m ((c : Thread nD τ).loc main_arg0)) ?_
  funext a
  apply Fin.ext
  match a with
  | ⟨0, _⟩ => show cc0_transform_0 (grid0.coords t) 0 * 8 + 1 * r.val = 8 * (t.val / 16) + r.val; rw [h0]; omega
  | ⟨1, _⟩ => show cc0_transform_0 (grid0.coords t) 1 * 256 + 1 * j.val = 256 * (t.val % 16) + j.val; rw [h1]; omega
  | ⟨2, _⟩ => show cc0_transform_0 (grid0.coords t) 2 * 1024 + 1 * k.val = k.val; rw [h2]; omega

/-- The weights' block at every point is the whole array, -/
theorem wblk_eq (hO : Ok m) (c : Dev nD) (t : Fin (cfgM m hO).N) :
    @Eq (Vec F S2x1024 .f32) (iblk m hO c 1 t) (m ((c : Thread nD τ).loc main_arg1)) := by
  funext y
  unfold iblk
  show V m c main_arg1 ((((cfgM m hO).win 1).blk t).view.emb y) = m ((c : Thread nD τ).loc main_arg1) y
  unfold V
  refine congrArg (m ((c : Thread nD τ).loc main_arg1)) ?_
  funext a
  apply Fin.ext
  match a with
  | ⟨0, h0⟩ => show 0 * 2 + 1 * (y ⟨0, h0⟩).val = (y ⟨0, h0⟩).val; omega
  | ⟨1, h1⟩ => show 0 * 1024 + 1 * (y ⟨1, h1⟩).val = (y ⟨1, h1⟩).val; omega

/-- and so is the bias's. -/
theorem bblk_eq (hO : Ok m) (c : Dev nD) (t : Fin (cfgM m hO).N) :
    @Eq (Vec F S2 .f32) (iblk m hO c 2 t) (m ((c : Thread nD τ).loc main_arg2)) := by
  funext y
  unfold iblk
  show V m c main_arg2 ((((cfgM m hO).win 2).blk t).view.emb y) = m ((c : Thread nD τ).loc main_arg2) y
  unfold V
  refine congrArg (m ((c : Thread nD τ).loc main_arg2)) ?_
  funext a
  apply Fin.ext
  match a with
  | ⟨0, h0⟩ => show 0 * 2 + 1 * (y ⟨0, h0⟩).val = (y ⟨0, h0⟩).val; omega

end Cert.GatedReward.Blocks

end
-- ==== Proof.Payload.lean ====
/-
  One grid point's arithmetic, read at an index over the extended reals.

  The body forms, for the 8 × 256 tokens of its block, both read-outs at once as one matrix product of the block's
  2048 token rows with the two weight rows (into a zero accumulator) plus the bias; the gate is the logistic function
  of the first read-out and the reward is the second.  The mask compares each token's position word with its row's
  length word, and the product gate · reward · mask is summed along the 256 lanes of each row and added to the running
  totals.  Read at row r this is the old total plus the tile's sum `tileVal` of the specification.
-/
import proofs.«421739_j26182120637033_1_alg».proof.Proof.Spec
import proofs.«421739_j26182120637033_1_alg».proof.Proof.Gen.KernelIdeal.Skeleton
import Idealize.ShloMosaic.Lib.Pipeline.Value
import Idealize.ShloMosaic.Lib.ValueLayout

noncomputable section

namespace Cert.GatedReward

open Idealize.ShloMosaic Idealize.ShloMosaic.ValueIdx Cert.KernelIdeal Cert.KernelIdeal.Gen

/-! ## The two read-outs: the block's matrix product with the weights, plus the bias -/

/-- On the left operand (the block's 2048 token rows by 1024 features) the row is the output's row … -/
theorem lhs_mm_0 (i : S2048x2.Idx) (q : dot_S2048x1024_S2x1024_S2048x2_1_1_0_0_n_n.contr.Idx) :
    (dot_S2048x1024_S2x1024_S2048x2_1_1_0_0_n_n.lhsIdx i q 0).val = (i 0).val := by
  unfold DotDims.lhsIdx
  rw [dif_neg (show ¬(0 : Fin S2048x1024.rank) ∈ dot_S2048x1024_S2x1024_S2048x2_1_1_0_0_n_n.lhsBatch by decide), dif_pos (show (0 : Fin S2048x1024.rank) ∈ dot_S2048x1024_S2x1024_S2048x2_1_1_0_0_n_n.lhsNonContracting by decide)]
  rfl
/-- … and the feature is the contraction position. -/
theorem lhs_mm_1 (i : S2048x2.Idx) (q : dot_S2048x1024_S2x1024_S2048x2_1_1_0_0_n_n.contr.Idx) :
    (dot_S2048x1024_S2x1024_S2048x2_1_1_0_0_n_n.lhsIdx i q 1).val = (q ⟨0, by decide⟩).val :=
  dot_S2048x1024_S2x1024_S2048x2_1_1_0_0_n_n.lhsIdx_val_of_single rfl i q
/-- On the right operand (the two weight rows) the row is the output's column … -/
theorem rhs_mm_0 (i : S2048x2.Idx) (q : dot_S2048x1024_S2x1024_S2048x2_1_1_0_0_n_n.contr.Idx) :
    (dot_S2048x1024_S2x1024_S2048x2_1_1_0_0_n_n.rhsIdx i q 0).val = (i 1).val := by
  unfold DotDims.rhsIdx
  rw [dif_neg (show ¬(0 : Fin S2x1024.rank) ∈ dot_S2048x1024_S2x1024_S2048x2_1_1_0_0_n_n.rhsBatch by decide), dif_pos (show (0 : Fin S2x1024.rank) ∈ dot_S2048x1024_S2x1024_S2048x2_1_1_0_0_n_n.rhsNonContracting by decide)]
  rfl
/-- … and the feature is again the contraction position. -/
theorem rhs_mm_1 (i : S2048x2.Idx) (q : dot_S2048x1024_S2x1024_S2048x2_1_1_0_0_n_n.contr.Idx) :
    (dot_S2048x1024_S2x1024_S2048x2_1_1_0_0_n_n.rhsIdx i q 1).val = (q ⟨0, by decide⟩).val :=
  dot_S2048x1024_S2x1024_S2048x2_1_1_0_0_n_n.rhsIdx_val_of_single rfl i q

/-- The product into the zero accumulator, at (token row t, read-out o): the sum over the 1024 features. -/
theorem mm_apply (a : FVec Ideal S2048x1024 .bf16) (b : FVec Ideal S2x1024 .bf16) (t : Fin 2048) (o : Fin 2) :
    matmul dot_S2048x1024_S2x1024_S2048x2_1_1_0_0_n_n none a b (constant (F := Ideal) S2048x2 .f32 0x00000000#32) (ix2 t o)
      = ∑ k : Fin 1024, a (ix2 t k) * b (ix2 o k) := by
  simp only [matmul]
  rw [Ideal.matmul_constant_zero_apply, ← Equiv.sum_comp (contrEquiv1 dot_S2048x1024_S2x1024_S2048x2_1_1_0_0_n_n 1024 rfl rfl).symm]
  refine Finset.sum_congr rfl fun k _ => ?_
  have hk := contrEquiv1_symm_val dot_S2048x1024_S2x1024_S2048x2_1_1_0_0_n_n 1024 rfl rfl k
  have el : dot_S2048x1024_S2x1024_S2048x2_1_1_0_0_n_n.lhsIdx (ix2 t o) ((contrEquiv1 dot_S2048x1024_S2x1024_S2048x2_1_1_0_0_n_n 1024 rfl rfl).symm k) = ix2 t k := funext fun c => Fin.ext (by
    match c with
    | ⟨0, _⟩ => exact lhs_mm_0 _ _
    | ⟨1, _⟩ => exact (lhs_mm_1 _ _).trans hk)
  have er : dot_S2048x1024_S2x1024_S2048x2_1_1_0_0_n_n.rhsIdx (ix2 t o) ((contrEquiv1 dot_S2048x1024_S2x1024_S2048x2_1_1_0_0_n_n 1024 rfl rfl).symm k) = ix2 o k := funext fun c => Fin.ext (by
    match c with
    | ⟨0, _⟩ => exact rhs_mm_0 _ _
    | ⟨1, _⟩ => exact (rhs_mm_1 _ _).trans hk)
  rw [el, er]

/-- Token (r, j) of the block is row 256·r + j of its 2048 token rows. -/
abbrev tok (r : Fin 8) (j : Fin 256) : Fin 2048 :=
  ⟨r.val * 256 + j.val, by have := r.isLt; have := j.isLt; omega⟩

/-- The block viewed as 2048 token rows, at (token (r, j), feature k). -/
theorem rows_apply (x : FVec Ideal S8x256x1024 .bf16) (r : Fin 8) (j : Fin 256) (k : Fin 1024) :
    shapeCast S2048x1024 x shapeCasts_S8x256x1024_S2048x1024 (ix2 (tok r j) k) = x (ix3 r j k) := by
  refine shapeCast_apply x shapeCasts_S8x256x1024_S2048x1024 (ix2 (tok r j) k) (ix3 r j k) ?_
  rw [Shape.rowMajor_val_two, Shape.rowMajor_val_three]
  rfl

/-- The bias as a row, repeated down the 2048 token rows, at (t, o). -/
theorem bias_apply (bb : FVec Ideal S2 .f32) (t : Fin 2048) (o : Fin 2) :
    broadcastTo S2048x2 (shapeCast S1x2 bb shapeCasts_S2_S1x2) broadcasts_S1x2_S2048x2 (ix2 t o) = bb (ix1 o) := by
  refine (broadcastTo_apply _ broadcasts_S1x2_S2048x2 (ix2 t o) (ix2 (0 : Fin 1) o) fun c => ?_).trans ?_
  · match c with
    | ⟨0, _⟩ => rfl
    | ⟨1, _⟩ => rfl
  · refine shapeCast_apply bb shapeCasts_S2_S1x2 (ix2 (0 : Fin 1) o) (ix1 o) ?_
    rw [Shape.rowMajor_val_one, Shape.rowMajor_val_two]
    show o.val = 0 * 2 + o.val
    omega

/-- Both read-outs of token (r, j): read-out o is the sum over the features of the token's row times weight row o, plus
    bias o (the narrowing to bf16 is the identity on the extended reals). -/
theorem fused_apply (xb : Vec Ideal S8x256x1024 .f32) (w : Vec Ideal S2x1024 .f32) (bb : Vec Ideal S2 .f32)
    (r : Fin 8) (j : Fin 256) (o : Fin 2) :
    k0_pay3 (F := Ideal) xb w bb (ix3 r j o) = (∑ k : Fin 1024, xb (ix3 r j k) * w (ix2 o k)) + bb (ix1 o) := by
  unfold k0_pay3
  refine (shapeCast_apply _ shapeCasts_S2048x2_S8x256x2 (ix3 r j o) (ix2 (tok r j) o) ?_).trans ?_
  · rw [Shape.rowMajor_val_two, Shape.rowMajor_val_three]
    rfl
  · rw [addf_apply, mm_apply, bias_apply]
    refine congrArg (· + bb (ix1 o)) (Finset.sum_congr rfl fun k _ => ?_)
    rw [rows_apply]
    rfl
/-! ## The reward and the gate of a token -/

/-- A slice of the two read-outs at read-out `o`, with its trailing unit axis dropped, at token (r, j). -/
theorem readout_apply (y : FVec Ideal S8x256x2 .f32) (o : Fin 2) (off : Fin 3 → Nat) (ho : off = ![0, 0, o.val])
    (h : S8x256x2.Slices off S8x256x1) (r : Fin 8) (j : Fin 256) :
    shapeCast S8x256 (extractStridedSlice S8x256x1 off y h) shapeCasts_S8x256x1_S8x256 (ix2 r j) = y (ix3 r j o) := by
  subst ho
  refine (shapeCast_apply _ shapeCasts_S8x256x1_S8x256 (ix2 r j) (ix3 r j (0 : Fin 1)) ?_).trans ?_
  · rw [Shape.rowMajor_val_two, Shape.rowMajor_val_three]
    show (r.val * 256 + j.val) * 1 + 0 = r.val * 256 + j.val
    omega
  · refine extractStridedSlice_apply _ y h (ix3 r j (0 : Fin 1)) (ix3 r j o) fun c => ?_
    match c with
    | ⟨0, _⟩ => show r.val = 0 + r.val; omega
    | ⟨1, _⟩ => show j.val = 0 + j.val; omega
    | ⟨2, _⟩ => show o.val = o.val + 0; omega

/-- The reward of token (r, j) is its second read-out. -/
theorem reward_apply (xb : Vec Ideal S8x256x1024 .f32) (w : Vec Ideal S2x1024 .f32) (bb : Vec Ideal S2 .f32)
    (r : Fin 8) (j : Fin 256) :
    k0_pay4 (F := Ideal) xb w bb (ix2 r j)
      = (∑ k : Fin 1024, xb (ix3 r j k) * w (ix2 (1 : Fin 2) k)) + bb (ix1 (1 : Fin 2)) := by
  unfold k0_pay4
  exact (readout_apply _ 1 _ rfl slices_S8x256x2_o0_0_1_S8x256x1 r j).trans (fused_apply xb w bb r j 1)

/-- The gate of token (r, j) is the logistic function of its first read-out. -/
theorem gate_apply (xb : Vec Ideal S8x256x1024 .f32) (w : Vec Ideal S2x1024 .f32) (bb : Vec Ideal S2 .f32)
    (r : Fin 8) (j : Fin 256) :
    k0_pay5 (F := Ideal) xb w bb (ix2 r j)
      = Ideal.logistic ((∑ k : Fin 1024, xb (ix3 r j k) * w (ix2 (0 : Fin 2) k)) + bb (ix1 (0 : Fin 2))) := by
  unfold k0_pay5
  show FloatOps.logistic (F := Ideal) _ = _
  rw [Ideal.logistic_def]
  exact congrArg Ideal.logistic
    ((readout_apply _ 0 _ rfl slices_S8x256x2_o0_0_0_S8x256x1 r j).trans (fused_apply xb w bb r j 0))

/-! ## The position word, the rows' lengths, and the mask -/

/-- The position word at (r, j): lane j of the tile, the tile's number times 256 added. -/
theorem pos_apply (i : grid0.Coords) (r : Fin 8) (j : Fin 256) :
    k0_pay6 i (ix2 r j) = BitVec.ofNat 32 j.val + BitVec.ofNat 32 (i 1).val * 256#32 := by
  unfold k0_pay6
  show IntOp.addi (iota .tc S8x256 32 [1] iota_S8x256_d1_w32 (ix2 r j)) (Scalar.muli (BitVec.ofNat 32 (i 1).val) 256#32) = _
  rw [iota_single_apply]
  rfl

/-- The eight length words, each repeated along a row of 256 lanes and the rows stacked: row r holds length r. -/
theorem lens_apply (l0 l1 l2 l3 l4 l5 l6 l7 : BitVec 32) (r : Fin 8) (j : Fin 256) :
    concatenate S8x256 0 [⟨S1x256, broadcast S1x256 l0⟩, ⟨S1x256, broadcast S1x256 l1⟩, ⟨S1x256, broadcast S1x256 l2⟩,
        ⟨S1x256, broadcast S1x256 l3⟩, ⟨S1x256, broadcast S1x256 l4⟩, ⟨S1x256, broadcast S1x256 l5⟩,
        ⟨S1x256, broadcast S1x256 l6⟩, ⟨S1x256, broadcast S1x256 l7⟩]
      concatenates_S1x256_S1x256_S1x256_S1x256_S1x256_S1x256_S1x256_S1x256_S8x256_d0 (ix2 r j)
      = ![l0, l1, l2, l3, l4, l5, l6, l7] r :=
  concatenate_ofFn_unit_apply (t := S8x256) (s₁ := S1x256) 0 (N := 8)
    (fun n => broadcast S1x256 (![l0, l1, l2, l3, l4, l5, l6, l7] n))
    concatenates_S1x256_S1x256_S1x256_S1x256_S1x256_S1x256_S1x256_S1x256_S8x256_d0 rfl rfl (ix2 r j) r rfl (ix2 (0 : Fin 1) j)
    (fun b hb => match b with
      | ⟨0, _⟩ => absurd rfl hb
      | ⟨1, _⟩ => rfl)

/-! ## The lane sum and the whole payload -/

/-- A row's sum over its 256 lanes, from the zero accumulator. -/
theorem lanes_apply (v : FVec Ideal S8x256 .f32) (hφ : FKind.Formats .f32)
    (hacc : (0x00000000#32 : BitVec 32) = 0x00000000#32) (r : Fin 8) :
    multiReduction (F := Ideal) .add [1] S8 v 0x00000000#32 reduces_S8x256_S8 hφ hacc (ix1 r)
      = ∑ j : Fin 256, v (ix2 r j) := by
  refine (Ideal.multiReduction_add_single v 0x00000000#32 reduces_S8x256_S8 hφ hacc (ix1 r)).trans ?_
  refine Finset.sum_congr rfl fun j _ => congrArg v ?_
  funext c
  match c with
  | ⟨0, _⟩ => rfl
  | ⟨1, _⟩ => rfl

/-- THE UPDATE AT A ROW: the new total of row `r` is the old one plus the sum, over the tile's 256 lanes, of
    gate · reward · mask of the row's tokens — the specification's `tileVal`, with the eight length words as the rows'
    lengths and the tile's number times 256 as the first position. -/
theorem pay1_apply (xb : Vec Ideal S8x256x1024 .f32) (w : Vec Ideal S2x1024 .f32) (bb : Vec Ideal S2 .f32)
    (i : grid0.Coords) (l0 l1 l2 l3 l4 l5 l6 l7 : BitVec 32) (acc : Vec Ideal S8x1 .f32) (r : Fin 8) :
    k0_pay1 (F := Ideal) (k0_pay4 xb w bb) (k0_pay5 xb w bb) (k0_pay6 i) (k0_pay7 (F := Ideal) l0) (k0_pay8 (F := Ideal) l1)
        (k0_pay9 (F := Ideal) l2) (k0_pay10 (F := Ideal) l3) l4 l5 l6 l7 acc (ix2 r (0 : Fin 1))
      = acc (ix2 r (0 : Fin 1))
        + tileVal xb w bb ![l0, l1, l2, l3, l4, l5, l6, l7] (BitVec.ofNat 32 (i 1).val * 256#32) r := by
  unfold k0_pay1 k0_pay7 k0_pay8 k0_pay9 k0_pay10
  refine (congrFun (shapeCast_self _ shapeCasts_S8x1_S8x1) (ix2 r (0 : Fin 1))).trans ?_
  rw [addf_apply]
  refine congrArg (acc (ix2 r (0 : Fin 1)) + ·) ?_
  refine (shapeCast_apply _ shapeCasts_S8_S8x1 (ix2 r (0 : Fin 1)) (ix1 r) ?_).trans ?_
  · rw [Shape.rowMajor_val_one, Shape.rowMajor_val_two]
    show r.val = r.val * 1 + 0
    omega
  · refine (lanes_apply _ _ _ r).trans ?_
    unfold tileVal
    refine Finset.sum_congr rfl fun j _ => ?_
    show k0_pay5 (F := Ideal) xb w bb (ix2 r j) * k0_pay4 (F := Ideal) xb w bb (ix2 r j)
        * ((((IntOp.cmpi .slt (k0_pay6 i (ix2 r j))
            (concatenate S8x256 0 [⟨S1x256, broadcast S1x256 l0⟩, ⟨S1x256, broadcast S1x256 l1⟩, ⟨S1x256, broadcast S1x256 l2⟩,
                ⟨S1x256, broadcast S1x256 l3⟩, ⟨S1x256, broadcast S1x256 l4⟩, ⟨S1x256, broadcast S1x256 l5⟩,
                ⟨S1x256, broadcast S1x256 l6⟩, ⟨S1x256, broadcast S1x256 l7⟩]
              concatenates_S1x256_S1x256_S1x256_S1x256_S1x256_S1x256_S1x256_S1x256_S8x256_d0 (ix2 r j))).setWidth 32).toInt : ℝ) : EReal)
        = _
    rw [gate_apply, reward_apply, pos_apply, lens_apply, widened_bit]
    rfl

end Cert.GatedReward

end
-- ==== Proof.Sweep.lean ====
/-
  The kernel's running totals, point by point.

  The 32 grid points sweep two row blocks of eight rows; point t works on row block t / 16 and on tile t % 16 of
  its 4096 positions.  The first point of a sweep zeroes the totals and adds its tile's row sums, every later point
  adds its tile's row sums to what the point before left, and the last point also copies the totals to the output
  block.  So after point t the total of row r of the block is the sum of the first t % 16 + 1 tiles of row
  8·(t / 16) + r — by induction on the point — and what the sweep's last point writes back is the whole row's sum.
-/
import proofs.«421739_j26182120637033_1_alg».proof.Proof.Spec
import proofs.«421739_j26182120637033_1_alg».proof.Proof.Blocks
import proofs.«421739_j26182120637033_1_alg».proof.Proof.Payload
import Idealize.ShloMosaic.Lib.Pipeline.Value
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.GatedReward.Sweep

open Cert.KernelIdeal Cert.KernelIdeal.Gen Cert.GatedReward.Pieces Cert.GatedReward.Blocks

variable (m : (ℓ : Loc nD τ sig) → Buf (Elt Ideal) ℓ)

/-- The four argument arrays on core `c`, at their literal types. -/
abbrev aX (c : Dev nD) : FVec Ideal SX .f32 := m ((c : Thread nD τ).loc main_arg0)
abbrev aW (c : Dev nD) : FVec Ideal SW .f32 := m ((c : Thread nD τ).loc main_arg1)
abbrev aB (c : Dev nD) : FVec Ideal SB .f32 := m ((c : Thread nD τ).loc main_arg2)
abbrev aL (c : Dev nD) : IVec SL 32 := m ((c : Thread nD τ).loc main_arg3)

/-- The table the body reads its length words from is the lengths argument. -/
theorem tbl_eq (c : Dev nD) : (tbl m 0 : S16.Idx → BitVec 32) = aL m c := by
  obtain rfl : c = 0 := Subsingleton.elim _ _
  rfl

theorem vec8 {α : Type} (f : Fin 8 → α) (r : Fin 8) : ![f 0, f 1, f 2, f 3, f 4, f 5, f 6, f 7] r = f r := by
  fin_cases r <;> rfl

/-- The totals a sweep starts from are zero. -/
theorem zeroAcc_apply (y : S8x1.Idx) : zeroAcc (F := Ideal) y = 0 := by
  unfold zeroAcc k0_pay2
  rw [shapeCast_self]
  exact Ideal.ofBits_zero_f32

/-- ONE POINT'S UPDATE at row `r` of its block: the old total plus the contributions of the tile's 256 positions
    `256·(t % 16) + j` of row `8·(t / 16) + r`. -/
theorem step_apply (hO : Ok m) (c : Dev nD) (t : Fin (cfgM m hO).N) (acc : Vec Ideal S8x1 .f32) (r : Fin 8) :
    step c (grid0.coords t) (iblk m hO c 0 t) (iblk m hO c 1 t) (iblk m hO c 2 t) (tbl m 0) acc (ix2 r (0 : Fin 1))
      = acc (ix2 r (0 : Fin 1))
        + ∑ j : Fin 256, termN (aX m c) (aW m c) (aB m c) (aL m c) (8 * (t.val / 16) + r.val) (256 * (t.val % 16) + j.val) := by
  unfold step
  refine (pay1_apply (iblk m hO c 0 t) (iblk m hO c 1 t) (iblk m hO c 2 t) (grid0.coords t)
    (lenWord c (grid0.coords t) 0 (tbl m 0)) (lenWord c (grid0.coords t) 1 (tbl m 0)) (lenWord c (grid0.coords t) 2 (tbl m 0)) (lenWord c (grid0.coords t) 3 (tbl m 0)) (lenWord c (grid0.coords t) 4 (tbl m 0)) (lenWord c (grid0.coords t) 5 (tbl m 0)) (lenWord c (grid0.coords t) 6 (tbl m 0)) (lenWord c (grid0.coords t) 7 (tbl m 0)) acc r).trans ?_
  refine congrArg (acc (ix2 r (0 : Fin 1)) + ·) ?_
  unfold tileVal
  refine Finset.sum_congr rfl fun j _ => ?_
  unfold termN
  rw [dif_pos ⟨row_lt t r, pos_lt t j⟩]
  unfold term
  have hx : (fun k : Fin 1024 => (iblk m hO c 0 t : Vec Ideal S8x256x1024 .f32) (ix3 r j k))
      = fun k => aX m c (ix3 ⟨8 * (t.val / 16) + r.val, row_lt t r⟩ ⟨256 * (t.val % 16) + j.val, pos_lt t j⟩ k) :=
    funext fun k => xblk_apply m hO c t r j k
  have hl : ![lenWord c (grid0.coords t) 0 (tbl m 0), lenWord c (grid0.coords t) 1 (tbl m 0), lenWord c (grid0.coords t) 2 (tbl m 0), lenWord c (grid0.coords t) 3 (tbl m 0), lenWord c (grid0.coords t) 4 (tbl m 0), lenWord c (grid0.coords t) 5 (tbl m 0), lenWord c (grid0.coords t) 6 (tbl m 0), lenWord c (grid0.coords t) 7 (tbl m 0)] r
      = aL m c (ix1 ⟨8 * (t.val / 16) + r.val, row_lt t r⟩) :=
    (vec8 (fun r => lenWord c (grid0.coords t) r (tbl m 0)) r).trans
      ((lenWord_eq c t r (tbl m 0)).trans (congrFun (tbl_eq m c) _))
  have hp : BitVec.ofNat 32 j.val + BitVec.ofNat 32 (grid0.coords t 1).val * 256#32
      = BitVec.ofNat 32 (256 * (t.val % 16) + j.val) := by
    rw [(point_facts t).1]; exact pos_word _ _
  rw [hx, hl, hp, wblk_eq m hO c t, bblk_eq m hO c t]

/-- THE RUNNING TOTALS after point `n`: row `r` of the block holds the sum of the first `n % 16 + 1` tiles of row
    `8·(n / 16) + r`. By induction on the point: a sweep's first point starts from zero, every other point adds its
    tile to what the point before left. -/
theorem scratch_eq (hO : Ok m) (c : Dev nD) : ∀ (n : ℕ) (hn : n < (cfgM m hO).N) (r : Fin 8),
    (outsAt0 m hO c n hn).2 (ix2 r (0 : Fin 1))
      = rowSum (aX m c) (aW m c) (aB m c) (aL m c) (8 * (n / 16) + r.val) (n % 16 + 1) := by
  intro n
  induction n using Nat.strong_induction_on with
  | _ n ih =>
    intro hn r
    have hN : (cfgM m hO).N = 32 := N_0
    by_cases h0 : n % 16 = 0
    · have h1 : ¬n % 16 = 15 := by omega
      rw [outsAt0_A m hO c ⟨n, hn⟩ h0 h1]
      dsimp only
      refine (congrFun (sout_A (F := Ideal) c (grid0.coords ⟨n, hn⟩) (ms0_0 m hO ⟨n, hn⟩) (hs0_0 m hO ⟨n, hn⟩) (ms0_1 m hO ⟨n, hn⟩) (hs0_1 m hO ⟨n, hn⟩) (ms0_2 m hO ⟨n, hn⟩) (hs0_2 m hO ⟨n, hn⟩) (ms0_3 m hO ⟨n, hn⟩) (hs0_3 m hO ⟨n, hn⟩) scM0_0 (Memref.isWhole_whole _)
        ((hcond0_0 ⟨n, hn⟩).mpr h0) (fun h => h1 ((hcond0_1 ⟨n, hn⟩).mp h)) (iblk m hO c 0 ⟨n, hn⟩) (iblk m hO c 1 ⟨n, hn⟩) (iblk m hO c 2 ⟨n, hn⟩) (tbl m 0)) (ix2 r (0 : Fin 1))).trans ?_
      refine (step_apply m hO c ⟨n, hn⟩ zeroAcc r).trans ?_
      rw [zeroAcc_apply, zero_add]
      show _ = rowSum (aX m c) (aW m c) (aB m c) (aL m c) (8 * (n / 16) + r.val) (n % 16 + 1)
      rw [h0, rowSum_one]
    · have hpos : n ≠ 0 := by rintro rfl; exact h0 rfl
      have hprev := ih (n - 1) (by omega) (by omega) r
      rw [show (n - 1) / 16 = n / 16 by omega, show (n - 1) % 16 + 1 = n % 16 by omega] at hprev
      by_cases h1 : n % 16 = 15
      · rw [outsAt0_C m hO c ⟨n, hn⟩ h0 h1]
        dsimp only
        refine (congrFun (sout_C (F := Ideal) c (grid0.coords ⟨n, hn⟩) (ms0_0 m hO ⟨n, hn⟩) (hs0_0 m hO ⟨n, hn⟩) (ms0_1 m hO ⟨n, hn⟩) (hs0_1 m hO ⟨n, hn⟩) (ms0_2 m hO ⟨n, hn⟩) (hs0_2 m hO ⟨n, hn⟩) (ms0_3 m hO ⟨n, hn⟩) (hs0_3 m hO ⟨n, hn⟩) scM0_0 (Memref.isWhole_whole _)
          (fun h => h0 ((hcond0_0 ⟨n, hn⟩).mp h)) ((hcond0_1 ⟨n, hn⟩).mpr h1) (iblk m hO c 0 ⟨n, hn⟩) (iblk m hO c 1 ⟨n, hn⟩) (iblk m hO c 2 ⟨n, hn⟩) (tbl m 0)
          (outsAt0 m hO c (n - 1) (by omega)).2) (ix2 r (0 : Fin 1))).trans ?_
        refine (step_apply m hO c ⟨n, hn⟩ _ r).trans ?_
        rw [rowSum_succ]
        exact congrArg (· + _) hprev
      · rw [outsAt0_B m hO c ⟨n, hn⟩ h0 h1]
        dsimp only
        refine (congrFun (sout_B (F := Ideal) c (grid0.coords ⟨n, hn⟩) (ms0_0 m hO ⟨n, hn⟩) (hs0_0 m hO ⟨n, hn⟩) (ms0_1 m hO ⟨n, hn⟩) (hs0_1 m hO ⟨n, hn⟩) (ms0_2 m hO ⟨n, hn⟩) (hs0_2 m hO ⟨n, hn⟩) (ms0_3 m hO ⟨n, hn⟩) (hs0_3 m hO ⟨n, hn⟩) scM0_0 (Memref.isWhole_whole _)
          (fun h => h0 ((hcond0_0 ⟨n, hn⟩).mp h)) (fun h => h1 ((hcond0_1 ⟨n, hn⟩).mp h)) (iblk m hO c 0 ⟨n, hn⟩) (iblk m hO c 1 ⟨n, hn⟩) (iblk m hO c 2 ⟨n, hn⟩) (tbl m 0)
          (outsAt0 m hO c (n - 1) (by omega)).2) (ix2 r (0 : Fin 1))).trans ?_
        refine (step_apply m hO c ⟨n, hn⟩ _ r).trans ?_
        rw [rowSum_succ]
        exact congrArg (· + _) hprev

/-- What the result array (16 × 1) ends holding: row `p` the whole row's sum. -/
abbrev outArr (c : Dev nD) : S16x1.Idx → EReal :=
  fun i => G (aX m c) (aW m c) (aB m c) (aL m c) (ix1 ⟨(i 0).val, (i 0).isLt⟩)

/-- The last point of a sweep copies out the totals it has just completed: sixteen tiles, the whole row. -/
theorem out_block (hO : Ok m) (c : Dev nD) (t : Fin (cfgM m hO).N) (h1 : t.val % 16 = 15) (r : Fin 8) :
    (outsAt0 m hO c t.val t.isLt).1 (ix2 r (0 : Fin 1))
      = G (aX m c) (aW m c) (aB m c) (aL m c) (ix1 ⟨8 * (t.val / 16) + r.val, row_lt t r⟩) := by
  have h0 : ¬t.val % 16 = 0 := by omega
  have hs := scratch_eq m hO c t.val t.isLt r
  rw [outsAt0_C m hO c t h0 h1] at hs ⊢
  dsimp only at hs ⊢
  refine ((congrFun (out_C (F := Ideal) c (grid0.coords t) (ms0_0 m hO t) (hs0_0 m hO t) (ms0_1 m hO t) (hs0_1 m hO t) (ms0_2 m hO t) (hs0_2 m hO t) (ms0_3 m hO t) (hs0_3 m hO t) scM0_0 (Memref.isWhole_whole _)
      (fun h => h0 ((hcond0_0 t).mp h)) ((hcond0_1 t).mpr h1) (iblk m hO c 0 t) (iblk m hO c 1 t) (iblk m hO c 2 t) (tbl m 0)
      (outsAt0 m hO c (t.val - 1) (Nat.lt_of_le_of_lt (Nat.sub_le _ _) t.isLt)).2) (ix2 r (0 : Fin 1))).trans
    (congrFun (sout_C (F := Ideal) c (grid0.coords t) (ms0_0 m hO t) (hs0_0 m hO t) (ms0_1 m hO t) (hs0_1 m hO t) (ms0_2 m hO t) (hs0_2 m hO t) (ms0_3 m hO t) (hs0_3 m hO t) scM0_0 (Memref.isWhole_whole _)
      (fun h => h0 ((hcond0_0 t).mp h)) ((hcond0_1 t).mpr h1) (iblk m hO c 0 t) (iblk m hO c 1 t) (iblk m hO c 2 t) (tbl m 0)
      (outsAt0 m hO c (t.val - 1) (Nat.lt_of_le_of_lt (Nat.sub_le _ _) t.isLt)).2) (ix2 r (0 : Fin 1))).symm).trans (hs.trans ?_)
  rw [h1]
  exact rowSum_sixteen (aX m c) (aW m c) (aB m c) (aL m c) ⟨8 * (t.val / 16) + r.val, row_lt t r⟩

/-- WHAT A WRITE-BACK WRITES: block `t / 16` of the result. -/
theorem flushed_eq (hO : Ok m) (c : Dev nD) (t : Fin (cfgM m hO).N) (hf : ((cfgM m hO).win 3).flush t = true) :
    (dats m hO 0 c).flushed 3 t = (((cfgM m hO).win 3).blk t).view.read (Elt Ideal) (outArr m c) := by
  have h1 : t.val % 16 = 15 := (flush0_3 (adm m hO) t).mp hf
  obtain ⟨-, -, -, -, i0, -⟩ := point_facts t
  show ((cfgM m hO).win 3).cut (grid0.coords t) ((dats m hO 0 c).after 3 t) = _
  rw [after0_3]
  funext y
  obtain ⟨r, q, rfl⟩ : ∃ (r : Fin 8) (q : Fin 1), y = ix2 r q := ⟨_, _, eq_ix2 (n0 := 8) (n1 := 1) y⟩
  obtain rfl : q = 0 := Subsingleton.elim _ _
  show (outsAt0 m hO c t.val t.isLt).1 (ix2 r (0 : Fin 1))
    = outArr m c ((((cfgM m hO).win 3).blk t).view.emb (ix2 r (0 : Fin 1)))
  rw [out_block m hO c t h1 r]
  refine congrArg (fun z : Fin 16 => G (aX m c) (aW m c) (aB m c) (aL m c) (ix1 z)) (Fin.ext ?_)
  show 8 * (t.val / 16) + r.val = cc0_transform_3 (grid0.coords t) 0 * 8 + 1 * r.val
  rw [i0]; omega

/-- The two write-backs cover the result array: row `p` lies in the block of sweep `p / 8`'s last point. -/
theorem covered (hO : Ok m) (c : Dev nD) (i : S16x1.Idx) :
    ∃ t : Fin (cfgM m hO).N, ((cfgM m hO).win 3).flush t = true ∧ i ∈ (((cfgM m hO).win 3).blk t).view.set := by
  have hN : (cfgM m hO).N = 32 := N_0
  obtain ⟨p, q, rfl⟩ : ∃ (p : Fin 16) (q : Fin 1), i = ix2 p q := ⟨_, _, eq_ix2 i⟩
  obtain rfl : q = 0 := Subsingleton.elim _ _
  have hp := p.isLt
  have hT : 16 * (p.val / 8) + 15 < (cfgM m hO).N := by omega
  obtain ⟨-, -, -, -, i0, i1⟩ := point_facts ⟨16 * (p.val / 8) + 15, hT⟩
  dsimp only at i0 i1
  refine ⟨⟨16 * (p.val / 8) + 15, hT⟩, (flush0_3 (adm m hO) _).mpr (by show (16 * (p.val / 8) + 15) % 16 = 15; omega), ?_⟩
  show ix2 p (0 : Fin 1) ∈ ((View.whole main_v0).slice (((cfgM m hO).win 3).rect ⟨16 * (p.val / 8) + 15, hT⟩)).set
  refine (Finset.ext_iff.mp (View.set_slice_whole main_v0 (((cfgM m hO).win 3).rect ⟨16 * (p.val / 8) + 15, hT⟩))
    (ix2 p (0 : Fin 1))).mpr ?_
  refine Rect.mem_set_unit.mpr ?_
  intro a
  match a with
  | ⟨0, _⟩ =>
    show cc0_transform_3 (grid0.coords ⟨16 * (p.val / 8) + 15, hT⟩) 0 * 8 ≤ p.val
      ∧ p.val < cc0_transform_3 (grid0.coords ⟨16 * (p.val / 8) + 15, hT⟩) 0 * 8 + 8
    rw [i0]; omega
  | ⟨1, _⟩ =>
    show cc0_transform_3 (grid0.coords ⟨16 * (p.val / 8) + 15, hT⟩) 1 * 1 ≤ 0
      ∧ 0 < cc0_transform_3 (grid0.coords ⟨16 * (p.val / 8) + 15, hT⟩) 1 * 1 + 1
    rw [i1]; omega

/-- THE RESULT ARRAY after the region: every row its whole sum. -/
theorem final (hO : Ok m) (c : Dev nD) : (dats m hO 0 c).arrAt 3 (cfgM m hO).N = outArr m c :=
  (dats m hO 0 c).arrAt_eq_of_cover 3 (outArr m c) (fun t hf => flushed_eq m hO c t hf) (covered m hO c)

/-- The program's result: the 16 × 1 array read as 16 numbers. -/
theorem tail_eq (hO : Ok m) (c : Dev nD) :
    Pipeline.afterTail pcfgs (fun _ => adm m hO) (dats m hO) 0 (V0 m) [hostOps1] c main_v1
      = G (aX m c) (aW m c) (aB m c) (aL m c) := by
  unfold Pipeline.afterTail
  show StableHlo.after hostOps1 _ (Proc.devRef .tc main_v1) = _
  after_results
  have hA : Pipeline.withArrays (Pipeline.pin pcfgs (fun _ => adm m hO) 0).spec c (V0 m c)
      (fun w => (dats m hO 0 c).arrAt w (Pipeline.pin pcfgs (fun _ => adm m hO) 0).N) (Proc.devRef .tc main_v0)
        = outArr m c :=
    (Pipeline.withArrays_arr spec0 winFacts0.arr_inj c _ _ 3).trans (final m hO c)
  funext i
  obtain ⟨p, rfl⟩ : ∃ p : Fin 16, i = ix1 p := ⟨_, eq_ix1 i⟩
  show shapeCast S16 (Pipeline.withArrays (Pipeline.pin pcfgs (fun _ => adm m hO) 0).spec c (V0 m c)
      (fun w => (dats m hO 0 c).arrAt w (Pipeline.pin pcfgs (fun _ => adm m hO) 0).N) (Proc.devRef .tc main_v0)) _ (ix1 p) = _
  rw [hA]
  refine (shapeCast_apply (outArr m c) _ (ix1 p) (ix2 p (0 : Fin 1)) ?_).trans rfl
  rw [Shape.rowMajor_val_two, Shape.rowMajor_val_one]
  show p.val * 1 + 0 = p.val
  omega

variable (ρ : Dev nD → PrngReg)

/-- THE KERNEL'S RUN, READ: every weakly fair execution ends with the result at the rows' whole sums and the four
    arguments as they were. -/
theorem run (hO : Ok m) : θ_run defs (onTc (τ := τ) (main (F := Ideal))) ⟨m, fun _ => 0, ρ⟩ fun r => ∀ c : Dev nD,
      r.2.mem ((c.tc : Thread nD τ).loc main_v1) = G (aX m c) (aW m c) (aB m c) (aL m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v1 (by decide : main_v1 ∈ Pipeline.restRefs sig spec0)).trans (tail_eq m hO c),
      ((h c).1 0).trans (((dats m hO 0 c).arrAt_in 0 rfl _).trans ((A_eq m hO c 0).trans (V_main_arg0 m c))),
      ((h c).1 1).trans (((dats m hO 0 c).arrAt_in 1 rfl _).trans ((A_eq m hO c 1).trans (V_main_arg1 m c))),
      ((h c).1 2).trans (((dats m hO 0 c).arrAt_in 2 rfl _).trans ((A_eq m hO c 2).trans (V_main_arg2 m c))),
      ((h c).2 main_arg3 (by decide : main_arg3 ∈ Pipeline.restRefs sig spec0)).trans (W_main_arg3 m hO (dats m hO) c)⟩)
    (run_main m ρ hO)

end Cert.GatedReward.Sweep

end
-- ==== Proof.lean ====
/-
  The kernel streams x (16 × 4096 × 1024) once: each grid point reads an 8 × 256 × 1024 block, projects every token
  onto the two rows of W, adds b, and sums sigmoid(first) · second over the tile's positions that lie before the
  row's length, accumulating across the sixteen tiles of a row block; the reference computes the same read-outs for
  the whole array and sums each row's 4096 positions at once.  Over the extended reals both results are, at row p,

      Σ_{s < 4096}  1/(1 + e^(−u₀(p,s))) · u₁(p,s) · [s < lengths p],     u_o(p,s) = Σ_k x[p,s,k] · W[o,k] + b[o]

  (`Cert.GatedReward.G`): the kernel's bf16 conversions are the identity there, its logistic IS 1/(1 + e^(−u)),
  its mask (a widened compare bit converted signed) is the reference's (the bit converted unsigned), and a finite
  sum may be grouped into tiles.  No step needs the inputs finite, so the precondition is never opened; the
  kernel's index maps read no prefetched word, so its side condition on the table is trivially true.
-/
import proofs.«421739_j26182120637033_1_alg».proof.Defs
import proofs.«421739_j26182120637033_1_alg».proof.Proof.Gen.Kernel
import proofs.«421739_j26182120637033_1_alg».proof.Proof.Gen.Kernel.Skeleton
import proofs.«421739_j26182120637033_1_alg».proof.Proof.Gen.Kernel.Launch
import proofs.«421739_j26182120637033_1_alg».proof.Proof.Gen.Kernel.Points
import proofs.«421739_j26182120637033_1_alg».proof.Proof.Gen.Kernel.Frame
import proofs.«421739_j26182120637033_1_alg».proof.Proof.Gen.KernelIdeal
import proofs.«421739_j26182120637033_1_alg».proof.Proof.Gen.KernelIdeal.Skeleton
import proofs.«421739_j26182120637033_1_alg».proof.Proof.Gen.KernelIdeal.Launch
import proofs.«421739_j26182120637033_1_alg».proof.Proof.Gen.KernelIdeal.Points
import proofs.«421739_j26182120637033_1_alg».proof.Proof.Gen.KernelIdeal.Frame
import proofs.«421739_j26182120637033_1_alg».proof.Proof.Gen.ReferenceIdeal
import proofs.«421739_j26182120637033_1_alg».proof.Proof.Gen.ReferenceIdeal.Run
import proofs.«421739_j26182120637033_1_alg».proof.Proof.Gen.ReferenceIdeal.Read
import proofs.«421739_j26182120637033_1_alg».proof.Proof.Gen.Pre_finite_inputs
import proofs.«421739_j26182120637033_1_alg».proof.Proof.RefIsG
import proofs.«421739_j26182120637033_1_alg».proof.Proof.Sweep
import Idealize.ShloMosaic.Adequacy
import Idealize.ShloMosaic.Init

noncomputable section

namespace Cert.Proof

open Idealize.ShloMosaic Idealize.ShloMosaic.TcCoe Idealize.SL.Sem

instance : Cert.Kernel.Facts := Cert.Kernel.Gen.facts
instance : Cert.KernelIdeal.Facts := Cert.KernelIdeal.Gen.facts
instance : Cert.ReferenceIdeal.Facts := Cert.ReferenceIdeal.Gen.facts
instance : Cert.Pre_finite_inputs.Facts := Cert.Pre_finite_inputs.Gen.facts

/-- The word-level kernel runs and keeps its arguments: its blocks' positions depend on no table word. -/
theorem frame_k : Cert.frame_Kernel := fun m ρ _ => Cert.Kernel.Gen.frame m ρ trivial

/-- So does the kernel read over the extended reals. -/
theorem frame_ki : Cert.frame_KernelIdeal := fun m ρ _ => Cert.KernelIdeal.Gen.frame m ρ trivial

/-- The reference is a straight line of host operations: its run, with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- Nothing was rewritten between the kernel and its reading over the extended reals. -/
theorem preserves : Cert.preserves_Kernel_KernelIdeal := trivial

/-- From arguments that agree, both programs end at `G` of them: the kernel by its sweep of the grid, the reference by
    reading its operations one at a time. -/
theorem algebraic : Cert.algebraic_KernelIdeal_ReferenceIdeal := by
  intro m ρ m' ρ' _ hagree
  refine ⟨fun c => Cert.GatedReward.G (Cert.GatedReward.Sweep.aX m c) (Cert.GatedReward.Sweep.aW m c)
    (Cert.GatedReward.Sweep.aB m c) (Cert.GatedReward.Sweep.aL m c), Cert.GatedReward.Sweep.run m ρ trivial, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v23_eq, (hagree c).1, (hagree c).2.1, (hagree c).2.2.1, (hagree c).2.2.2]
  exact Cert.GatedReward.ref_eq_G _ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
